-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S8192 : Shape := ⟨1, ![8192]⟩
abbrev S16x2048 : Shape := ⟨2, ![16, 2048]⟩
abbrev S8192x16 : Shape := ⟨2, ![8192, 16]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S16x2048 : S_.BroadcastsInDim S16x2048 (![] : Fin 0 → Fin S16x2048.rank)
  reducesTo_S16x2048_S_d0_1 : S16x2048.ReducesTo [0, 1] S_
  bcast_S_S8192x16 : S_.BroadcastsInDim S8192x16 (![] : Fin 0 → Fin S8192x16.rank)
  reducesTo_S8192x16_S_d0_1 : S8192x16.ReducesTo [0, 1] S_

variable [Facts]

def fn_part1 {F : FTy → Type} [FloatOps F] (main_arg4 : FVec F S8192x16 .f32) (main_v13 : IVec S_ 1) (main_v16 : IVec S16x2048 1) : IVec S_ 1 :=
  let main_c_5 : IVec S_ 1 := constantI S_ 1 1#1
  let main_v17 : IVec S_ 1 := (fun x v => Host.reduce IntOp.andi x v reducesTo_S16x2048_S_d0_1 h_S_) main_v16 main_c_5
  let main_v18 : IVec S_ 1 := andi main_v13 main_v17
  let main_v19 : FVec F S8192x16 .f32 := Host.absf main_arg4
  let main_cst_6 : FVec F S_ .f32 := constant S_ .f32 0x7F800000#32
  let main_v20 : FVec F S8192x16 .f32 := broadcastInDim S8192x16 ![] bcast_S_S8192x16 main_cst_6
  let main_v21 : IVec S8192x16 1 := cmpf .olt main_v19 main_v20
  let main_c_7 : IVec S_ 1 := constantI S_ 1 1#1
  let main_v22 : IVec S_ 1 := (fun x v => Host.reduce IntOp.andi x v reducesTo_S8192x16_S_d0_1 h_S_) main_v21 main_c_7
  let main_v23 : IVec S_ 1 := andi main_v18 main_v22
  main_v23

def fn {F : FTy → Type} [FloatOps F] (main_arg0 : FVec F S4x2048x2048 .f32) (main_arg1 : FVec F S8192x2048 .f32) (main_arg2 : FVec F S8192 .f32) (main_arg3 : FVec F S16x2048 .f32) (main_arg4 : FVec F S8192x16 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S16x2048 .f32 := Host.absf main_arg3
  let main_cst_4 : FVec F S_ .f32 := constant S_ .f32 0x7F800000#32
  let main_v15 : FVec F S16x2048 .f32 := broadcastInDim S16x2048 ![] bcast_S_S16x2048 main_cst_4
  let main_v16 : IVec S16x2048 1 := cmpf .olt main_v14 main_v15
  fn_part1 (F := F) main_arg4 main_v13 main_v16
-- ==== Kernel.lean ====
abbrev S4x2048x2048 : Shape := ⟨3, ![4, 2048, 2048]⟩
abbrev S8192x2048 : Shape := ⟨2, ![8192, 2048]⟩
abbrev S8192 : Shape := ⟨1, ![8192]⟩
abbrev S16x2048 : Shape := ⟨2, ![16, 2048]⟩
abbrev S8192x16 : Shape := ⟨2, ![8192, 16]⟩
abbrev S1x8192 : Shape := ⟨2, ![1, 8192]⟩
abbrev S8192x8192 : Shape := ⟨2, ![8192, 8192]⟩
abbrev S512x2048 : Shape := ⟨2, ![512, 2048]⟩
abbrev S512x16 : Shape := ⟨2, ![512, 16]⟩
abbrev S1x512 : Shape := ⟨2, ![1, 512]⟩
abbrev S512x512 : Shape := ⟨2, ![512, 512]⟩
abbrev S4x2048x8192 : Shape := ⟨3, ![4, 2048, 8192]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S16x2048, .f32⟩
  | .hbm, ⟨4, _⟩ => ⟨S8192x16, .f32⟩
  | .hbm, ⟨5, _⟩ => ⟨S8192x2048, .f32⟩
  | .hbm, ⟨6, _⟩ => ⟨S1x8192, .f32⟩
  | .hbm, ⟨7, _⟩ => ⟨S8192x8192, .f32⟩
  | .hbm, ⟨8, _⟩ => ⟨S4x2048x8192, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S16x2048, .f32⟩
  | .local _ .vmem, ⟨5, _⟩ => ⟨S512x16, .f32⟩
  | .local _ .vmem, ⟨6, _⟩ => ⟨S512x16, .f32⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x2048_S8192x2048 : S4x2048x2048.ShapeCasts S8192x2048
  shapeCasts_S8192_S1x8192 : S8192.ShapeCasts S1x8192
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S16x2048_S16x2048_0_0 : ∀ a, (![0, 0] : Fin 2 → Nat) a + S16x2048.size a ≤ S16x2048.size a
  h_S16x2048 : 0 < S16x2048.numel
  inb_S512x16_S512x16_0_0 : ∀ a, (![0, 0] : Fin 2 → Nat) a + S512x16.size a ≤ S512x16.size a
  h_S512x16 : 0 < S512x16.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x8192_S4x2048x8192 : S8192x8192.ShapeCasts S4x2048x8192
  dot_S512x2048_S512x2048_S512x512_1_1_0_0_n_n_wf : DotDims.WF S512x2048 S512x2048 S512x512 [1] [1] [0] [0] [] []
  dot_S512x2048_S16x2048_S512x16_1_1_0_0_n_n_wf : DotDims.WF S512x2048 S16x2048 S512x16 [1] [1] [0] [0] [] []
  dot_S512x16_S512x16_S512x512_1_1_0_0_n_n_wf : DotDims.WF S512x16 S512x16 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x2048.size a
  hwx0_2 : ∀ i : grid0.Coords, EltTy.bits .f32 = 32 ∨ (Rect.block (s := S16x2048) S16x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S8192x16.size a
  hwx0_3 : ∀ i : grid0.Coords, EltTy.bits .f32 = 32 ∨ (Rect.block (s := S8192x16) S512x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x8192.size a
  hwx0_5 : ∀ i : grid0.Coords, EltTy.bits .f32 = 32 ∨ (Rect.block (s := S8192x8192) S512x512.size (cc0_transform_5 i) (hinb0_5 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x2048_S16x2048_S512x16_1_1_0_0_n_n : DotDims S512x2048 S16x2048 S512x16 where
  lhsContracting := [1]
  rhsContracting := [1]
  lhsNonContracting := [0]
  rhsNonContracting := [0]
  lhsBatch := []
  rhsBatch := []
  wf := dot_S512x2048_S16x2048_S512x16_1_1_0_0_n_n_wf
def dot_S512x16_S512x16_S512x512_1_1_0_0_n_n : DotDims S512x16 S512x16 S512x512 where
  lhsContracting := [1]
  rhsContracting := [1]
  lhsNonContracting := [0]
  rhsNonContracting := [0]
  lhsBatch := []
  rhsBatch := []
  wf := dot_S512x16_S512x16_S512x512_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S8192 : Shape := ⟨1, ![8192]⟩
abbrev S16x2048 : Shape := ⟨2, ![16, 2048]⟩
abbrev S8192x16 : Shape := ⟨2, ![8192, 16]⟩
abbrev S4x2048x8192 : Shape := ⟨3, ![4, 2048, 8192]⟩
abbrev S1x1x8192 : Shape := ⟨3, ![1, 1, 8192]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S16x2048, .f32⟩
  | .hbm, ⟨4, _⟩ => ⟨S8192x16, .f32⟩
  | .hbm, ⟨5, _⟩ => ⟨S4x2048x8192, .f32⟩
  | .hbm, ⟨6, _⟩ => ⟨S1x1x8192, .f32⟩
  | .hbm, ⟨7, _⟩ => ⟨S4x2048x8192, .f32⟩
  | .hbm, ⟨8, _⟩ => ⟨S4x2048x8192, .f32⟩
  | .hbm, ⟨9, _⟩ => ⟨S4x2048x16, .f32⟩
  | .hbm, ⟨10, _⟩ => ⟨S4x2048x8192, .f32⟩
  | .hbm, ⟨11, _⟩ => ⟨S_, .f32⟩
  | .hbm, ⟨12, _⟩ => ⟨S4x2048x8192, .f32⟩
  | .hbm, ⟨13, _⟩ => ⟨S4x2048x8192, .f32⟩
  | .hbm, ⟨14, _⟩ => ⟨S4x2048x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  bcast_S_S4x2048x8192 : S_.BroadcastsInDim S4x2048x8192 (![] : Fin 0 → Fin S4x2048x8192.rank)
  dot_S4x2048x2048_S8192x2048_S4x2048x8192_2_1_01_0_n_n_wf : DotDims.WF S4x2048x2048 S8192x2048 S4x2048x8192 [2] [1] [0, 1] [0] [] []
  dot_S4x2048x2048_S16x2048_S4x2048x16_2_1_01_0_n_n_wf : DotDims.WF S4x2048x2048 S16x2048 S4x2048x16 [2] [1] [0, 1] [0] [] []
  dot_S4x2048x16_S8192x16_S4x2048x8192_2_1_01_0_n_n_wf : DotDims.WF S4x2048x16 S8192x16 S4x2048x8192 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x2048_S16x2048_S4x2048x16_2_1_01_0_n_n : DotDims S4x2048x2048 S16x2048 S4x2048x16 where
  lhsContracting := [2]
  rhsContracting := [1]
  lhsNonContracting := [0, 1]
  rhsNonContracting := [0]
  lhsBatch := []
  rhsBatch := []
  wf := dot_S4x2048x2048_S16x2048_S4x2048x16_2_1_01_0_n_n_wf
def dot_S4x2048x16_S8192x16_S4x2048x8192_2_1_01_0_n_n : DotDims S4x2048x16 S8192x16 S4x2048x8192 where
  lhsContracting := [2]
  rhsContracting := [1]
  lhsNonContracting := [0, 1]
  rhsNonContracting := [0]
  lhsBatch := []
  rhsBatch := []
  wf := dot_S4x2048x16_S8192x16_S4x2048x8192_2_1_01_0_n_n_wf

class Facts : Prop extends Facts₀ where

variable [Facts]
-- ==== Proof.LibRowsByRows.lean ====
/-
  A matrix product whose right operand is stored row by row against the left operand's rows.

  For an `M × K` array `lhs` and an `N × K` array `rhs`, both contracted on their last axis (the product
  `lhs · rhsᵀ`), the entry at row `r` and column `j` of the result is `∑ k, lhs (r, k) · rhs (j, k)` on the
  extended reals: the same sum whether the product is accumulated into a zero array or has no accumulator at all.
  Nothing depends on the three extents, so a product over a tile and a product over whole arrays read the same way.
-/
import Idealize.ShloMosaic.Lib.ValueIdx
import Idealize.ShloMosaic.PureOps.Ideal.Laws

noncomputable section

namespace Cert.LibRowsByRows

open Idealize.ShloMosaic Idealize.ShloMosaic.ValueIdx

variable {M K N : ℕ}

/-- The left operand is read on the result's row. -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from fun h => nomatch h),
    dif_pos (show (0 : Fin (⟨2, ![M, K]⟩ : Shape).rank) ∈ (DotDims.transposedRhs M K N).lhsNonContracting from List.mem_singleton.mpr rfl)]
  rfl

/-- Its column is the position in the contraction. -/
theorem lhs_col (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand is read on the row numbered by the result's column. -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from fun h => nomatch h),
    dif_pos (show (0 : Fin (⟨2, ![N, K]⟩ : Shape).rank) ∈ (DotDims.transposedRhs M K N).rhsNonContracting from List.mem_singleton.mpr rfl)]
  rfl

/-- Its column too is the position in the contraction. -/
theorem rhs_col (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The sum over the contraction positions, re-indexed by the contracted coordinate `k : Fin K`: the operands are
    read at (r, k) and (j, k). -/
theorem sum_eq {φ₁ φ₂ : FTy} (lhs : FVec Ideal ⟨2, ![M, K]⟩ φ₁) (rhs : FVec Ideal ⟨2, ![N, K]⟩ φ₂) (r : Fin M) (j : Fin N) :
    (∑ q : (DotDims.transposedRhs M K N).contr.Idx,
        lhs ((DotDims.transposedRhs M K N).lhsIdx (ix2 r j) q) * rhs ((DotDims.transposedRhs M K N).rhsIdx (ix2 r j) q))
      = ∑ k : Fin K, lhs (ix2 r k) * rhs (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r j) ((contrEquiv1 (DotDims.transposedRhs M K N) K rfl rfl).symm k) = ix2 r k :=
    funext fun a => Fin.ext (by
      match a with
      | ⟨0, _⟩ => exact lhs_row _ _
      | ⟨1, _⟩ => exact (lhs_col _ _).trans hk)
  have er : (DotDims.transposedRhs M K N).rhsIdx (ix2 r j) ((contrEquiv1 (DotDims.transposedRhs M K N) K rfl rfl).symm k) = ix2 j k :=
    funext fun a => Fin.ext (by
      match a with
      | ⟨0, _⟩ => exact rhs_row _ _
      | ⟨1, _⟩ => exact (rhs_col _ _).trans hk)
  rw [el, er]

/-- The product accumulated into a zero array, read at (r, j). The dimension numbers may be any record that IS the
    rows-by-rows one. -/
theorem matmul_zero_apply {φ₁ φ₂ : FTy} (d : DotDims ⟨2, ![M, K]⟩ ⟨2, ![N, K]⟩ ⟨2, ![M, N]⟩)
    (hd : d = DotDims.transposedRhs M K N) (prec : Option ContractPrecision) (lhs : FVec Ideal ⟨2, ![M, K]⟩ φ₁)
    (rhs : FVec Ideal ⟨2, ![N, K]⟩ φ₂) (r : Fin M) (j : Fin N) :
    matmul d prec lhs rhs (constant (F := Ideal) ⟨2, ![M, N]⟩ .f32 0x00000000#32) (ix2 r j)
      = ∑ k : Fin K, lhs (ix2 r k) * rhs (ix2 j k) := by
  subst hd
  show FloatOps.matmul (DotDims.transposedRhs M K N) prec lhs rhs (constant ⟨2, ![M, N]⟩ .f32 0x00000000#32) (ix2 r j) = _
  rw [Ideal.matmul_constant_zero_apply]
  exact sum_eq lhs rhs r j

/-- The host's product with no accumulator, read at (r, j). -/
theorem dotGeneral_apply {φ₁ φ₂ : FTy} (d : DotDims ⟨2, ![M, K]⟩ ⟨2, ![N, K]⟩ ⟨2, ![M, N]⟩)
    (hd : d = DotDims.transposedRhs M K N) (prec : Option ContractPrecision) (sched : HostSchedule)
    (lhs : FVec Ideal ⟨2, ![M, K]⟩ φ₁) (rhs : FVec Ideal ⟨2, ![N, K]⟩ φ₂) (r : Fin M) (j : Fin N) :
    FloatOps.dotGeneral d prec sched lhs rhs (ix2 r j) = ∑ k : Fin K, lhs (ix2 r k) * rhs (ix2 j k) := by
  subst hd
  rw [Ideal.dotGeneral_apply]
  exact sum_eq lhs rhs r j

end Cert.LibRowsByRows

end
-- ==== Proof.Spec.lean ====
/-
  A linear layer with a low-rank correction, entry by entry.

  For an input row `x`, a weight row `w`, a bias `β`, a rank-16 pair `A` (16 rows as long as `x`) and `b` (16
  numbers), and a scale `s`, the layer's entry is

      (∑ k, x k · w k + β) + (∑ r, (∑ k, x k · A r k) · b r) · s

  on the extended reals, in exactly this grouping. `onRows` lays it over a matrix of input rows (one output row per
  input row, one output column per weight row), `onBatches` over a stack of such matrices; the two are the same numbers
  in two arrangements, row `e·2048 + t` of the first being row `t` of batch `e` of the second.

  A tile of the first arrangement — 512 input rows against 512 weight rows, the three products accumulated into zero
  arrays, every change of float format the identity — computes the entry of its rows and columns.
-/
import Idealize.ShloMosaic.Lib.ValueIdx
import Idealize.ShloMosaic.Lib.ValueLayout
import Idealize.ShloMosaic.Lib.Pipeline.Value
import Idealize.ShloMosaic.PureOps.Ideal.Laws
import proofs.«176791_j39651138077175_1_alg».proof.Proof.LibRowsByRows

noncomputable section

namespace Cert.Lora

open Idealize.ShloMosaic Idealize.ShloMosaic.ValueIdx

/-- One entry of the layer: the base product plus the bias, plus the scaled low-rank product. -/
def entry {K R : ℕ} (x w : Fin K → EReal) (β : EReal) (A : Fin R → Fin K → EReal) (b : Fin R → EReal) (s : EReal) : EReal :=
  (∑ k : Fin K, x k * w k + β) + (∑ r : Fin R, (∑ k : Fin K, x k * A r k) * b r) * s

/-- The entry depends on the input row only through its numbers. -/
theorem entry_congr {K R : ℕ} {x x' : Fin K → EReal} (e : ∀ k, x k = x' k) (w : Fin K → EReal) (β : EReal)
    (A : Fin R → Fin K → EReal) (b : Fin R → EReal) (s : EReal) : entry x w β A b s = entry x' w β A b s := by
  rw [show x = x' from funext e]

/-- The scale both programs spell: the word of `1.0`. -/
abbrev scale : EReal := Ideal.ofBits .f32 0x3F800000#32

/-- The layer over a matrix of input rows, the bias given as a one-row matrix. -/
def onRows {M K N R : ℕ} (x : (⟨2, ![M, K]⟩ : Shape).Idx → EReal) (W : (⟨2, ![N, K]⟩ : Shape).Idx → EReal)
    (β : (⟨2, ![1, N]⟩ : Shape).Idx → EReal) (A : (⟨2, ![R, K]⟩ : Shape).Idx → EReal) (B : (⟨2, ![N, R]⟩ : Shape).Idx → EReal) :
    (⟨2, ![M, N]⟩ : Shape).Idx → EReal := fun j =>
  entry (fun k => x (ix2 (j 0) k)) (fun k => W (ix2 (j 1) k)) (β (ix2 (0 : Fin 1) (j 1))) (fun r k => A (ix2 r k))
    (fun r => B (ix2 (j 1) r)) scale

/-- The layer over a stack of matrices of input rows, the bias given as a vector. -/
def onBatches {E T K N R : ℕ} (x : (⟨3, ![E, T, K]⟩ : Shape).Idx → EReal) (W : (⟨2, ![N, K]⟩ : Shape).Idx → EReal)
    (β : (⟨1, ![N]⟩ : Shape).Idx → EReal) (A : (⟨2, ![R, K]⟩ : Shape).Idx → EReal) (B : (⟨2, ![N, R]⟩ : Shape).Idx → EReal) :
    (⟨3, ![E, T, N]⟩ : Shape).Idx → EReal := fun i =>
  entry (fun k => x (ix3 (i 0) (i 1) k)) (fun k => W (ix2 (i 2) k)) (β (ix1 (i 2))) (fun r k => A (ix2 r k))
    (fun r => B (ix2 (i 2) r)) scale

/-- One tile of the kernel: 512 input rows `x` against 512 weight rows `w`, the rank-16 rows `a` and 512 rows `b` of the
    second factor, the bias as one row of 512. Read at row `p` and column `q` it is the layer's entry of input row `p` and
    weight row `q`. The three products' dimension numbers may be any records that ARE the rows-by-rows ones. -/
theorem tile_apply
    (d₁ : DotDims ⟨2, ![512, 2048]⟩ ⟨2, ![512, 2048]⟩ ⟨2, ![512, 512]⟩) (h₁ : d₁ = DotDims.transposedRhs 512 2048 512)
    (d₂ : DotDims ⟨2, ![512, 2048]⟩ ⟨2, ![16, 2048]⟩ ⟨2, ![512, 16]⟩) (h₂ : d₂ = DotDims.transposedRhs 512 2048 16)
    (d₃ : DotDims ⟨2, ![512, 16]⟩ ⟨2, ![512, 16]⟩ ⟨2, ![512, 512]⟩) (h₃ : d₃ = DotDims.transposedRhs 512 16 512)
    (hf : FTy.bits .bf16 < FTy.bits .f32) (hb : (⟨2, ![1, 512]⟩ : Shape).Broadcasts ⟨2, ![512, 512]⟩)
    (x w : FVec Ideal ⟨2, ![512, 2048]⟩ .f32) (a : FVec Ideal ⟨2, ![16, 2048]⟩ .f32) (b : FVec Ideal ⟨2, ![512, 16]⟩ .f32)
    (β : FVec Ideal ⟨2, ![1, 512]⟩ .f32) (p q : Fin 512) :
    addf (addf (matmul d₁ none (truncf .bf16 x hf) (truncf .bf16 w hf) (constant (F := Ideal) ⟨2, ![512, 512]⟩ .f32 0x00000000#32))
          (broadcastTo ⟨2, ![512, 512]⟩ β hb))
        (mulf (matmul d₃ none
            (truncf .bf16 (matmul d₂ none (truncf .bf16 x hf) (truncf .bf16 a hf) (constant (F := Ideal) ⟨2, ![512, 16]⟩ .f32 0x00000000#32)) hf)
            (truncf .bf16 b hf) (constant (F := Ideal) ⟨2, ![512, 512]⟩ .f32 0x00000000#32))
          (broadcast ⟨2, ![512, 512]⟩ (Scalar.ofBits (F := Ideal) .f32 0x3F800000#32))) (ix2 p q)
      = entry (fun k => x (ix2 p k)) (fun k => w (ix2 q k)) (β (ix2 (0 : Fin 1) q)) (fun r k => a (ix2 r k))
          (fun r => b (ix2 q r)) scale := by
  show (matmul d₁ none (truncf .bf16 x hf) (truncf .bf16 w hf) (constant (F := Ideal) ⟨2, ![512, 512]⟩ .f32 0x00000000#32) (ix2 p q)
        + broadcastTo ⟨2, ![512, 512]⟩ β hb (ix2 p q))
      + matmul d₃ none
            (truncf .bf16 (matmul d₂ none (truncf .bf16 x hf) (truncf .bf16 a hf) (constant (F := Ideal) ⟨2, ![512, 16]⟩ .f32 0x00000000#32)) hf)
            (truncf .bf16 b hf) (constant (F := Ideal) ⟨2, ![512, 512]⟩ .f32 0x00000000#32) (ix2 p q) * scale = _
  rw [LibRowsByRows.matmul_zero_apply d₁ h₁, LibRowsByRows.matmul_zero_apply d₃ h₃, broadcastTo_1b_ab_apply]
  unfold entry
  refine congrArg (fun z => (∑ k : Fin 2048, x (ix2 p k) * w (ix2 q k) + β (ix2 (0 : Fin 1) q)) + z * scale) ?_
  refine Finset.sum_congr rfl fun r _ => ?_
  refine congrArg (· * b (ix2 q r)) ?_
  exact LibRowsByRows.matmul_zero_apply d₂ h₂ none (truncf .bf16 x hf) (truncf .bf16 a hf) p r

end Cert.Lora

end
-- ==== Proof.Reference.lean ====
/-
  The reference computes the layer over the stack of input matrices.

  Read one operation at a time, the reference's result at (e, t, o) is the base product of input row (e, t) with weight
  row `o` plus the bias at `o` (a vector laid along the last axis and then over every row of every batch), plus the
  product of the rank-16 intermediate of row (e, t) with row `o` of the second factor, times the broadcast scale: the
  layer's entry, in the layer's own grouping.
-/
import proofs.«176791_j39651138077175_1_alg».proof.Proof.Gen.ReferenceIdeal.Run
import proofs.«176791_j39651138077175_1_alg».proof.Proof.Gen.ReferenceIdeal.Read
import proofs.«176791_j39651138077175_1_alg».proof.Proof.Spec

noncomputable section

namespace Cert.Lora.Reference

open Idealize.ShloMosaic Idealize.ShloMosaic.ValueIdx Cert.ReferenceIdeal Cert.ReferenceIdeal.Read

/-- The base product reads the input at (e, t, k). -/
theorem base_lhs (i : S4x2048x8192.Idx) (k : Fin 2048) : lidx_main_v0 i k = ix3 (i 0) (i 1) k :=
  funext fun a => by match a with | ⟨0, _⟩ => rfl | ⟨1, _⟩ => rfl | ⟨2, _⟩ => rfl
/-- And the weights at (o, k). -/
theorem base_rhs (i : S4x2048x8192.Idx) (k : Fin 2048) : ridx_main_v0 i k = ix2 (i 2) k :=
  funext fun a => by match a with | ⟨0, _⟩ => rfl | ⟨1, _⟩ => rfl
/-- The bias, laid along the last axis and then over rows and batches, is read at `o`. -/
theorem bias_idx (i : S4x2048x8192.Idx) : idx_main_v1 (idx_main_v2 i) = ix1 (i 2) :=
  funext fun a => by match a with | ⟨0, _⟩ => rfl
/-- The rank-16 intermediate of row (e, t) at `r` reads the input at (e, t, k). -/
theorem mid_lhs (i : S4x2048x8192.Idx) (r : Fin 16) (k : Fin 2048) : lidx_main_v4 (lidx_main_v5 i r) k = ix3 (i 0) (i 1) k :=
  funext fun a => by match a with | ⟨0, _⟩ => rfl | ⟨1, _⟩ => rfl | ⟨2, _⟩ => rfl
/-- And the first factor at (r, k). -/
theorem mid_rhs (i : S4x2048x8192.Idx) (r : Fin 16) (k : Fin 2048) : ridx_main_v4 (lidx_main_v5 i r) k = ix2 r k :=
  funext fun a => by match a with | ⟨0, _⟩ => rfl | ⟨1, _⟩ => rfl
/-- The low-rank product reads the second factor at (o, r). -/
theorem low_rhs (i : S4x2048x8192.Idx) (r : Fin 16) : ridx_main_v5 i r = ix2 (i 2) r :=
  funext fun a => by match a with | ⟨0, _⟩ => rfl | ⟨1, _⟩ => rfl

/-- The reference's result is the layer over the stack of input matrices. -/
theorem result_eq (x : (⟨S4x2048x2048, .f32⟩ : BufTy).Contents (Elt Ideal)) (W : (⟨S8192x2048, .f32⟩ : BufTy).Contents (Elt Ideal))
    (β : (⟨S8192, .f32⟩ : BufTy).Contents (Elt Ideal)) (A : (⟨S16x2048, .f32⟩ : BufTy).Contents (Elt Ideal))
    (B : (⟨S8192x16, .f32⟩ : BufTy).Contents (Elt Ideal)) :
    val_main_v8 (F := Ideal) x W β A B = Lora.onBatches x W β A B := by
  funext i
  rw [val_main_v8_apply, val_main_v3_apply, val_main_v7_apply, val_main_v0_apply, val_main_v2_apply, val_main_v1_apply,
    val_main_v5_apply, val_main_v6_apply, val_main_cst_apply]
  simp only [val_main_v4_apply, base_lhs, base_rhs, bias_idx, mid_lhs, mid_rhs, low_rhs]
  rfl

end Cert.Lora.Reference

end
-- ==== Proof.KernelTile.lean ====
/-
  What the kernel's body stores, entry by entry.

  The body loads a tile of 512 input rows, 512 weight rows, the 16 rows of the first low-rank factor, 512 rows of the
  second and one row of 512 biases, and stores one 512 × 512 value. The two casts of a tile to its own shape change
  nothing, so the stored value at row `p` and column `q` is the layer's entry of the tile's input row `p` and weight
  row `q`.
-/
import proofs.«176791_j39651138077175_1_alg».proof.Proof.Gen.KernelIdeal.Skeleton
import proofs.«176791_j39651138077175_1_alg».proof.Proof.Spec

noncomputable section

namespace Cert.Lora.Kernel

open Idealize.ShloMosaic Idealize.ShloMosaic.ValueIdx Cert.KernelIdeal Cert.KernelIdeal.Gen

/-- The three products of the body are rows-by-rows products. -/
theorem base_dims : dot_S512x2048_S512x2048_S512x512_1_1_0_0_n_n = DotDims.transposedRhs 512 2048 512 := rfl
theorem mid_dims : dot_S512x2048_S16x2048_S512x16_1_1_0_0_n_n = DotDims.transposedRhs 512 2048 16 := rfl
theorem low_dims : dot_S512x16_S512x16_S512x512_1_1_0_0_n_n = DotDims.transposedRhs 512 16 512 := rfl

/-- The stored value at (p, q) is the layer's entry of the loaded tiles' row `p` and rows `q`. -/
theorem stored_apply (x w : Vec Ideal S512x2048 .f32) (a : Vec Ideal S16x2048 .f32) (b : Vec Ideal S512x16 .f32)
    (β : Vec Ideal S1x512 .f32) (p q : Fin 512) :
    k0_pay1 (F := Ideal) x w a b β (ix2 p q)
      = Lora.entry (fun k => x (ix2 p k)) (fun k => w (ix2 q k)) (β (ix2 (0 : Fin 1) q)) (fun r k => a (ix2 r k))
          (fun r => b (ix2 q r)) Lora.scale := by
  unfold k0_pay1
  simp only [shapeCast_self]
  exact Lora.tile_apply _ base_dims _ mid_dims _ low_dims _ _ x w a b β p q

end Cert.Lora.Kernel

end
-- ==== Proof.KernelArray.lean ====
/-
  From the tiles to the whole array.

  The grid has 16 × 16 points. At point (a, b) the body sees input rows 512·a … 512·a + 511, weight rows and
  second-factor rows 512·b … 512·b + 511, all 16 rows of the first factor and biases 512·b … 512·b + 511, and writes
  back the 512 × 512 tile at rows 512·a … and columns 512·b … of the result. So what each point writes back is that
  tile of ONE function of the arrays the region finds — the layer over the matrix of input rows —, the tiles cover
  the 8192 × 8192 result, and the result after the region is that function.
-/
import proofs.«176791_j39651138077175_1_alg».proof.Proof.Gen.KernelIdeal.Frame
import proofs.«176791_j39651138077175_1_alg».proof.Proof.KernelTile

set_option maxRecDepth 16384

noncomputable section

namespace Cert.Lora.Kernel

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

theorem zero_offsets : (![0, 0] : Fin 2 → Nat) = fun _ => 0 := funext fun a => by fin_cases a <;> rfl

/-- The layer over the matrix of input rows, of the arrays as the region finds them. -/
abbrev rowsOut (c : Dev nD) : S8192x8192.Idx → EReal :=
  Lora.onRows (M := 8192) (K := 2048) (N := 8192) (R := 16) (V m c main_v0) (V m c main_arg1) (V m c main_v1) (V m c main_arg3)
    (V m c main_arg4)

/-- Which block each window is on at a point, relative to the result's block (a, b): the input rows follow `a`, the
    weight rows, second-factor rows and biases follow `b`, the first factor stays put; both `a` and `b` stay below 16. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = 0 ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 15 ∧ win0_5.index t (1 : Fin 2) ≤ 15 :=
  (by decide +kernel : ∀ t : Fin grid0.N, _)

/-- Every block (a, b) of the result is some point's. -/
theorem idx_onto : ∀ (a b : Fin 16), ∃ t : Fin cfg0.N, win0_5.index t = ![a.val, b.val] :=
  (by decide +kernel : ∀ (a b : Fin 16), ∃ t : Fin grid0.N, win0_5.index t = ![a.val, b.val])

/-- The result's index that point `t`'s tile entry (p, q) lands on. -/
abbrev landing (t : Fin cfg0.N) (p q : Fin 512) : S8192x8192.Idx := ((cfg0.win 5).blk t).view.emb (ix2 p q)

/-- What point `t` writes back is tile `t` of the layer over the matrix of input rows. -/
theorem flushed_eq (c : Dev nD) (t : Fin cfg0.N) :
    (dats m 0 c).flushed 5 t = ((cfg0.win 5).blk t).view.read (Elt Ideal) (rowsOut m c) := by
  show (cfg0.win 5).cut (grid0.coords t) ((dats m 0 c).after 5 t) = _
  rw [after0_5]
  unfold out0_5
  rw [View.canon_unit_zero zero_offsets]
  simp only [View.ld_unit_zero (S := S512x2048) zero_offsets, View.ld_unit_zero (S := S16x2048) zero_offsets,
    View.ld_unit_zero (S := S512x16) zero_offsets, View.ld_unit_zero (S := S1x512) zero_offsets]
  obtain ⟨e00, e01, e10, e11, e20, e21, e30, e31, e40, e41, -, -⟩ := idx_facts t
  funext j
  obtain ⟨p, q, rfl⟩ : ∃ (p q : Fin 512), j = ix2 p q := ⟨j 0, j 1, eq_ix2 j⟩
  show k0_pay1 (F := Ideal) (iblk m c 0 t) (iblk m c 1 t) (iblk m c 2 t) (iblk m c 3 t) (iblk m c 4 t) (ix2 p q)
    = rowsOut m c (landing t p q)
  refine (stored_apply (iblk m c 0 t) (iblk m c 1 t) (iblk m c 2 t) (iblk m c 3 t) (iblk m c 4 t) p q).trans ?_
  have hx : (fun k : Fin 2048 => iblk m c 0 t (ix2 p k)) = fun k => V m c main_v0 (ix2 (landing t p q 0) k) := funext fun k => by
    show V m c main_v0 (((cfg0.win 0).blk t).view.emb (ix2 p k)) = _
    refine congrArg (V m c main_v0) (funext fun a => Fin.ext ?_)
    match a with
    | ⟨0, _⟩ => show win0_0.index t (0 : Fin 2) * 512 + 1 * p.val = win0_5.index t (0 : Fin 2) * 512 + 1 * p.val; omega
    | ⟨1, _⟩ => show win0_0.index t (1 : Fin 2) * 2048 + 1 * k.val = k.val; omega
  have hw : (fun k : Fin 2048 => iblk m c 1 t (ix2 q k)) = fun k => V m c main_arg1 (ix2 (landing t p q 1) k) := funext fun k => by
    show V m c main_arg1 (((cfg0.win 1).blk t).view.emb (ix2 q k)) = _
    refine congrArg (V m c main_arg1) (funext fun a => Fin.ext ?_)
    match a with
    | ⟨0, _⟩ => show win0_1.index t (0 : Fin 2) * 512 + 1 * q.val = win0_5.index t (1 : Fin 2) * 512 + 1 * q.val; omega
    | ⟨1, _⟩ => show win0_1.index t (1 : Fin 2) * 2048 + 1 * k.val = k.val; omega
  have ha : (fun (r : Fin 16) (k : Fin 2048) => iblk m c 2 t (ix2 r k)) = fun r k => V m c main_arg3 (ix2 r k) :=
    funext fun r => funext fun k => by
    show V m c main_arg3 (((cfg0.win 2).blk t).view.emb (ix2 r k)) = _
    refine congrArg (V m c main_arg3) (funext fun a => Fin.ext ?_)
    match a with
    | ⟨0, _⟩ => show win0_2.index t (0 : Fin 2) * 16 + 1 * r.val = r.val; omega
    | ⟨1, _⟩ => show win0_2.index t (1 : Fin 2) * 2048 + 1 * k.val = k.val; omega
  have hb : (fun r : Fin 16 => iblk m c 3 t (ix2 q r)) = fun r => V m c main_arg4 (ix2 (landing t p q 1) r) := funext fun r => by
    show V m c main_arg4 (((cfg0.win 3).blk t).view.emb (ix2 q r)) = _
    refine congrArg (V m c main_arg4) (funext fun a => Fin.ext ?_)
    match a with
    | ⟨0, _⟩ => show win0_3.index t (0 : Fin 2) * 512 + 1 * q.val = win0_5.index t (1 : Fin 2) * 512 + 1 * q.val; omega
    | ⟨1, _⟩ => show win0_3.index t (1 : Fin 2) * 16 + 1 * r.val = r.val; omega
  have hβ : iblk m c 4 t (ix2 (0 : Fin 1) q) = V m c main_v1 (ix2 (0 : Fin 1) (landing t p q 1)) := by
    show V m c main_v1 (((cfg0.win 4).blk t).view.emb (ix2 (0 : Fin 1) q)) = _
    refine congrArg (V m c main_v1) (funext fun a => Fin.ext ?_)
    match a with
    | ⟨0, _⟩ => show win0_4.index t (0 : Fin 2) * 1 + 1 * 0 = 0; omega
    | ⟨1, _⟩ => show win0_4.index t (1 : Fin 2) * 512 + 1 * q.val = win0_5.index t (1 : Fin 2) * 512 + 1 * q.val; omega
  rw [hx, hw, ha, hb, hβ]
  rfl

/-- An index of the result is in point `t`'s tile iff each coordinate is in the tile's range on its axis. -/
theorem mem_tile (t : Fin cfg0.N) (i : S8192x8192.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v2).slice (win0_5.rect t)).set ↔ _
  rw [View.set_slice_whole, Rect.mem_set_unit]
  exact Iff.rfl

/-- The tiles cover the result: (i₀, i₁) is in the tile of block (i₀ / 512, i₁ / 512). -/
theorem covered (i : S8192x8192.Idx) :
    ∃ t : Fin cfg0.N, (cfg0.win 5).flush t = true ∧ i ∈ ((cfg0.win 5).blk t).view.set := by
  have hi0 : (i 0).val < 8192 := (i 0).isLt
  have hi1 : (i 1).val < 8192 := (i 1).isLt
  obtain ⟨t, ht⟩ := idx_onto ⟨(i 0).val / 512, by omega⟩ ⟨(i 1).val / 512, by omega⟩
  have q0 : win0_5.index t (0 : Fin 2) = (i 0).val / 512 := congrFun ht 0
  have q1 : win0_5.index t (1 : Fin 2) = (i 1).val / 512 := congrFun ht 1
  refine ⟨t, flush0_5 t, ?_⟩
  rw [mem_tile]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- The result array after the region is the layer over the matrix of input rows. -/
theorem array_eq (c : Dev nD) : (dats m 0 c).arrAt 5 cfg0.N = rowsOut m c :=
  (dats m 0 c).arrAt_eq_of_cover 5 (rowsOut m c) (fun t _ => flushed_eq m c t) (covered)

end Cert.Lora.Kernel

end
-- ==== Proof.KernelRun.lean ====
/-
  The kernel's whole program: two re-layouts, the region, one re-layout.

  Before the region the input stack of 4 matrices of 2048 rows is laid out as one matrix of 8192 rows — row
  `e·2048 + t` is row `t` of matrix `e` — and the bias vector as a one-row matrix; after it the 8192 × 8192 result is
  laid out as 4 matrices of 2048 rows again. A re-layout keeps every number at its row-major position, so the
  program's result at (e, t, o) is the region's at (e·2048 + t, o), which is the layer's entry of input row (e, t),
  weight row `o` and bias `o`: the layer over the stack of input matrices.
-/
import proofs.«176791_j39651138077175_1_alg».proof.Proof.Gen.KernelIdeal.Frame
import proofs.«176791_j39651138077175_1_alg».proof.Proof.KernelArray
import Idealize.ShloMosaic.Lib.StableHlo.Run

set_option maxRecDepth 16384

noncomputable section

namespace Cert.Lora.Kernel

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The matrix of input rows the region finds is the input stack re-laid. -/
theorem rows_eq (c : Dev nD) :
    (V m c main_v0 : S8192x2048.Idx → EReal)
      = shapeCast S8192x2048 (m ((c : Thread nD τ).loc main_arg0)) shapeCasts_S4x2048x2048_S8192x2048 := by
  show StableHlo.after hostOps0 (fun b => m (c, b)) (Proc.devRef .tc main_v0) = _
  after_results
  rfl

/-- The one-row bias matrix the region finds is the bias vector re-laid. -/
theorem bias_eq (c : Dev nD) :
    (V m c main_v1 : S1x8192.Idx → EReal)
      = shapeCast S1x8192 (m ((c : Thread nD τ).loc main_arg2)) shapeCasts_S8192_S1x8192 := by
  show StableHlo.after hostOps0 (fun b => m (c, b)) (Proc.devRef .tc main_v1) = _
  after_results
  rfl

/-- Row `e·2048 + t` of the matrix of input rows is row `t` of matrix `e` of the stack. -/
theorem rows_apply (c : Dev nD) (e : Fin 4) (t : Fin 2048) (h : e.val * 2048 + t.val < 8192) (k : Fin 2048) :
    V m c main_v0 (ix2 ⟨e.val * 2048 + t.val, h⟩ k) = m ((c : Thread nD τ).loc main_arg0) (ix3 e t k) := by
  rw [rows_eq]
  exact shapeCast_apply _ _ _ _ (by
    show (S4x2048x2048.rowMajor (ix3 e t k)).val = (S8192x2048.rowMajor (ix2 ⟨e.val * 2048 + t.val, h⟩ k)).val
    rw [Shape.rowMajor_val_two, Shape.rowMajor_val_three]; rfl)

/-- The one-row bias matrix at column `o` is the bias vector at `o`. -/
theorem bias_apply (c : Dev nD) (o : Fin 8192) :
    V m c main_v1 (ix2 (0 : Fin 1) o) = m ((c : Thread nD τ).loc main_arg2) (ix1 o) := by
  rw [bias_eq]
  exact shapeCast_a_1a_apply _ _ _ _

/-- The program's result buffer after the last re-layout is the region's result re-laid. -/
theorem tail_eq (c : Dev nD) :
    Pipeline.afterTail₀ cfgs (dats m) 0 (V0 m) [hostOps1] c main_v3
      = shapeCast S4x2048x8192 (rowsOut m c) shapeCasts_S8192x8192_S4x2048x8192 := by
  unfold Pipeline.afterTail₀
  show StableHlo.after hostOps1 _ (Proc.devRef .tc main_v3) = _
  after_results
  exact congrArg (fun X : S8192x8192.Idx → EReal => shapeCast S4x2048x8192 X shapeCasts_S8192x8192_S4x2048x8192)
    ((Pipeline.withArrays_arr spec0 launch0.win.arr_inj c _ _ 5).trans (array_eq m c))

/-- The program's result is the layer over the stack of input matrices, of the arguments as launched. -/
theorem result_eq (c : Dev nD) :
    Pipeline.afterTail₀ cfgs (dats m) 0 (V0 m) [hostOps1] c main_v3
      = Lora.onBatches (E := 4) (T := 2048) (K := 2048) (N := 8192) (R := 16) (m ((c : Thread nD τ).loc main_arg0))
          (m ((c : Thread nD τ).loc main_arg1)) (m ((c : Thread nD τ).loc main_arg2)) (m ((c : Thread nD τ).loc main_arg3))
          (m ((c : Thread nD τ).loc main_arg4)) := by
  rw [tail_eq]
  funext i
  obtain ⟨e, t, o, rfl⟩ : ∃ (e : Fin 4) (t : Fin 2048) (o : Fin 8192), i = ix3 e t o := ⟨i 0, i 1, i 2, eq_ix3 i⟩
  have hrow : e.val * 2048 + t.val < 8192 := by have := e.isLt; have := t.isLt; omega
  rw [shapeCast_apply (rowsOut m c) shapeCasts_S8192x8192_S4x2048x8192 (ix3 e t o) (ix2 ⟨e.val * 2048 + t.val, hrow⟩ o)
    (by
      show (S8192x8192.rowMajor (ix2 ⟨e.val * 2048 + t.val, hrow⟩ o)).val = (S4x2048x8192.rowMajor (ix3 e t o)).val
      rw [Shape.rowMajor_val_two, Shape.rowMajor_val_three]; rfl)]
  show Lora.entry (fun k => V m c main_v0 (ix2 ⟨e.val * 2048 + t.val, hrow⟩ k)) (fun k => V m c main_arg1 (ix2 o k))
      (V m c main_v1 (ix2 (0 : Fin 1) o)) (fun r k => V m c main_arg3 (ix2 r k)) (fun r => V m c main_arg4 (ix2 o r)) Lora.scale
    = Lora.entry (fun k => m ((c : Thread nD τ).loc main_arg0) (ix3 e t k)) (fun k => m ((c : Thread nD τ).loc main_arg1) (ix2 o k))
      (m ((c : Thread nD τ).loc main_arg2) (ix1 o)) (fun r k => m ((c : Thread nD τ).loc main_arg3) (ix2 r k))
      (fun r => m ((c : Thread nD τ).loc main_arg4) (ix2 o r)) Lora.scale
  rw [V_main_arg1, V_main_arg3, V_main_arg4, bias_apply,
    show (fun k => V m c main_v0 (ix2 ⟨e.val * 2048 + t.val, hrow⟩ k)) = fun k => m ((c : Thread nD τ).loc main_arg0) (ix3 e t k)
      from funext fun k => rows_apply m c e t hrow k]

/-- Every weakly fair execution of the kernel's program terminates with its result buffer at the layer over the stack
    of input matrices and its arguments as launched. -/
theorem run : θ_run defs (onTc (τ := τ) (main (F := Ideal))) ⟨m, fun _ => 0, ρ⟩ fun r => ∀ c : Dev nD,
      r.2.mem ((c.tc : Thread nD τ).loc main_v3)
        = Lora.onBatches (E := 4) (T := 2048) (K := 2048) (N := 8192) (R := 16) (m ((c.tc : Thread nD τ).loc main_arg0))
            (m ((c.tc : Thread nD τ).loc main_arg1)) (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.Lora.Kernel

end
-- ==== Proof.lean ====
/-
  A linear layer with a rank-16 correction: `x · Wᵀ + β + ((x · Aᵀ) · Bᵀ) · s` with `s` the word of `1.0`.

  The kernel flattens the 4 × 2048 input rows into one matrix of 8192 rows, computes 512 × 512 tiles of the result on a
  16 × 16 grid — each tile the base product of its input rows with its weight rows plus its biases, plus the product of
  its rows' rank-16 intermediate with its rows of the second factor times the scale — and lays the 8192 × 8192 result
  out as 4 × 2048 × 8192. The reference computes the same three products over the whole stack at once. On the extended
  reals a change of float format is the identity and a product accumulated into zeros is the plain sum over the
  contracted axis, so both programs give, at (e, t, o), the same expression in the same grouping of the same input row,
  weight row, bias and factors: no law of arithmetic is needed, and so no finiteness.

  Spec: the layer's entry, the two arrangements, and a tile at an index. Reference: the reference is the layer over
  the stack. KernelTile, KernelArray, KernelRun: the stored tile, the tiles covering the result, the program's run.
-/
import proofs.«176791_j39651138077175_1_alg».proof.Defs
import proofs.«176791_j39651138077175_1_alg».proof.Proof.Gen.Kernel
import proofs.«176791_j39651138077175_1_alg».proof.Proof.Gen.Kernel.Skeleton
import proofs.«176791_j39651138077175_1_alg».proof.Proof.Gen.Kernel.Launch
import proofs.«176791_j39651138077175_1_alg».proof.Proof.Gen.Kernel.Points
import proofs.«176791_j39651138077175_1_alg».proof.Proof.Gen.Kernel.Frame
import proofs.«176791_j39651138077175_1_alg».proof.Proof.Gen.KernelIdeal
import proofs.«176791_j39651138077175_1_alg».proof.Proof.Gen.KernelIdeal.Skeleton
import proofs.«176791_j39651138077175_1_alg».proof.Proof.Gen.KernelIdeal.Launch
import proofs.«176791_j39651138077175_1_alg».proof.Proof.Gen.KernelIdeal.Points
import proofs.«176791_j39651138077175_1_alg».proof.Proof.Gen.KernelIdeal.Frame
import proofs.«176791_j39651138077175_1_alg».proof.Proof.Gen.ReferenceIdeal
import proofs.«176791_j39651138077175_1_alg».proof.Proof.Gen.ReferenceIdeal.Run
import proofs.«176791_j39651138077175_1_alg».proof.Proof.Gen.ReferenceIdeal.Read
import proofs.«176791_j39651138077175_1_alg».proof.Proof.Gen.Pre_finite_inputs
import proofs.«176791_j39651138077175_1_alg».proof.Proof.Reference
import proofs.«176791_j39651138077175_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer over the stack of input matrices, of arguments that agree. -/
theorem algebraic : Cert.algebraic_KernelIdeal_ReferenceIdeal := by
  intro m ρ m' ρ' _ hagree
  refine ⟨_, Cert.Lora.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.Lora.Reference.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
